-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192 : Shape := ⟨1, ![8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x2048 .f32) (main_arg1 : IVec S8192 32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 32 := constantI S_ 32 2048#32
  let main_v6 : IVec S8192 32 := broadcastInDim S8192 ![] bcast_S_S8192 main_c_1
  let main_v7 : IVec S8192 1 := cmpi .slt main_arg1 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  main_v10
-- ==== Kernel.lean ====
abbrev S8192x2048 : Shape := ⟨2, ![8192, 2048]⟩
abbrev S8192 : Shape := ⟨1, ![8192]⟩
abbrev S_ : Shape := ⟨0, ![]⟩
abbrev S2048 : Shape := ⟨1, ![2048]⟩
abbrev S8192x1 : Shape := ⟨2, ![8192, 1]⟩
abbrev S1x2048 : Shape := ⟨2, ![1, 2048]⟩
abbrev S2048x1 : Shape := ⟨2, ![2048, 1]⟩
abbrev S2048x2048 : Shape := ⟨2, ![2048, 2048]⟩
abbrev S256x2048 : Shape := ⟨2, ![256, 2048]⟩
abbrev S256x1 : Shape := ⟨2, ![256, 1]⟩
abbrev S256 : Shape := ⟨1, ![256]⟩

abbrev nBuf : Space → Nat
  | .hbm => 44
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S_, .f32⟩
  | .hbm, ⟨3, _⟩ => ⟨S2048, .f32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S_, .f32⟩
  | .hbm, ⟨13, _⟩ => ⟨S8192, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S1x2048, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x1, .f32⟩
  | .hbm, ⟨24, _⟩ => ⟨S1x2048, .f32⟩
  | .hbm, ⟨25, _⟩ => ⟨S2048x2048, .f32⟩
  | .hbm, ⟨26, _⟩ => ⟨S2048x2048, .f32⟩
  | .hbm, ⟨27, _⟩ => ⟨S2048x2048, .i1⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .bf16⟩
  | .hbm, ⟨37, _⟩ => ⟨S8192x1, .i32⟩
  | .hbm, ⟨38, _⟩ => ⟨S8192x1, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x1, .i32⟩
  | .local _ .vmem, ⟨3, _⟩ => ⟨S256x1, .i32⟩
  | .local _ .vmem, ⟨4, _⟩ => ⟨S2048x2048, .bf16⟩
  | .local _ .vmem, ⟨5, _⟩ => ⟨S256x1, .f32⟩
  | .local _ .vmem, ⟨6, _⟩ => ⟨S256x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S2048 : S_.BroadcastsInDim S2048 (![] : Fin 0 → Fin S2048.rank)
  bcast_S_S8192 : S_.BroadcastsInDim S8192 (![] : Fin 0 → Fin S8192.rank)
  bcast_S8192_S8192x1_0 : S8192.BroadcastsInDim S8192x1 (![0] : Fin 1 → Fin S8192x1.rank)
  bcast_S2048_S1x2048_1 : S2048.BroadcastsInDim S1x2048 (![1] : Fin 1 → Fin S1x2048.rank)
  bcast_S2048_S2048x1_0 : S2048.BroadcastsInDim S2048x1 (![0] : Fin 1 → Fin S2048x1.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  transposes_S2048x2048_S2048x2048_1_0 : S2048x2048.Transposes [1, 0] S2048x2048
  bitsLt_bf16_f32 : FTy.bits .bf16 < FTy.bits .f32
  shapeCasts_S8192_S8192x1 : S8192.ShapeCasts S8192x1
  inb_S256x2048_S256x2048_0_0 : ∀ a, (![0, 0] : Fin 2 → Nat) a + S256x2048.size a ≤ S256x2048.size a
  h_S256x2048 : 0 < S256x2048.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x2048_d1_w32 : S256x2048.Iotas .tc 32 [1]
  broadcasts_S256x1_S256x2048 : S256x1.Broadcasts S256x2048
  natLt_1_32 : 1 < 32
  reduces_S256x2048_S256 : S256x2048.Reduces [1] S256
  shapeCasts_S256_S256x1 : S256.ShapeCasts S256x1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S8192x1_S8192 : S8192x1.ShapeCasts S8192
  reducesTo_S8192_S_d0 : S8192.ReducesTo [0] S_
  h_S_ : 0 < S_.numel
  scatter_S2048_S8192x1_S8192_n_0_0_1_wf : ScatterDims.WF S2048 S8192x1 S8192 [] [0] [0] 1
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .i32 = 32 ∨ (Rect.block (s := S8192x1) S256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)

variable [Facts₀]

def scatter_S2048_S8192x1_S8192_n_0_0_1 : ScatterDims S2048 S8192x1 S8192 where
  updateWindowDims := []
  insertedWindowDims := [0]
  scatterDimsToOperandDims := [0]
  indexVectorDim := 1
  wf := scatter_S2048_S8192x1_S8192_n_0_0_1_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192 : Shape := ⟨1, ![8192]⟩
abbrev S8192x1 : Shape := ⟨2, ![8192, 1]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S8192x1, .i32⟩
  | .hbm, ⟨3, _⟩ => ⟨S1x2048, .i32⟩
  | .hbm, ⟨4, _⟩ => ⟨S8192x2048, .i32⟩
  | .hbm, ⟨5, _⟩ => ⟨S8192x2048, .i32⟩
  | .hbm, ⟨6, _⟩ => ⟨S8192x2048, .i1⟩
  | .hbm, ⟨7, _⟩ => ⟨S8192x2048, .f32⟩
  | .hbm, ⟨8, _⟩ => ⟨S_, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S1x2048, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x1, .f32⟩
  | .hbm, ⟨19, _⟩ => ⟨S1x2048, .f32⟩
  | .hbm, ⟨20, _⟩ => ⟨S2048x2048, .f32⟩
  | .hbm, ⟨21, _⟩ => ⟨S2048x2048, .f32⟩
  | .hbm, ⟨22, _⟩ => ⟨S2048x2048, .i1⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x2048_0_1 : S8192x1.BroadcastsInDim S8192x2048 (![0, 1] : Fin 2 → Fin S8192x2048.rank)
  bcast_S1x2048_S8192x2048_0_1 : S1x2048.BroadcastsInDim S8192x2048 (![0, 1] : Fin 2 → Fin S8192x2048.rank)
  reducesTo_S8192x2048_S2048_d0 : S8192x2048.ReducesTo [0] S2048
  h_S_ : 0 < S_.numel
  bcast_S_S2048 : S_.BroadcastsInDim S2048 (![] : Fin 0 → Fin S2048.rank)
  bcast_S2048_S1x2048_1 : S2048.BroadcastsInDim S1x2048 (![1] : Fin 1 → Fin S1x2048.rank)
  bcast_S2048_S2048x1_0 : S2048.BroadcastsInDim S2048x1 (![0] : Fin 1 → Fin S2048x1.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  reducesTo_S8192x2048_S8192_d1 : S8192x2048.ReducesTo [1] S8192
  bcast_S_S8192x2048 : S_.BroadcastsInDim S8192x2048 (![] : Fin 0 → Fin S8192x2048.rank)
  reducesTo_S8192_S_d0 : S8192.ReducesTo [0] S_
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.LabelRange.lean ====
/-
  THE LABEL HALF OF THE PRECONDITION, READ BACK.

  The precondition is the conjunction of two `all`-reductions: "every logit is finite" and "every label l
  satisfies 0 ≤ l and l < 2048, both as signed 32-bit words". This file reads the second half off the printed
  predicate: if the predicate evaluates to true, then each label is the 32-bit word of a natural number below 2048.

  The road: a conjunction of two bits is 1 only if both are; an `and`-reduction over the whole vector that came out 1
  met a 1 at every position; at one position the bit is again a conjunction, of the two signed comparisons of the label
  against the broadcast constants 0 and 2048; a signed word that is at least 0 reads the same signed and unsigned, so the
  signed bound l < 2048 is a bound on its unsigned value, and a word is the word of its unsigned value.
-/
import proofs.«426053_j16621523436028_1_alg».proof.Pre_finite_inputs
import Idealize.ShloMosaic.Lib.ReduceAll
import Idealize.ShloMosaic.Lib.StableHlo.Predicate
import Idealize.ShloMosaic.Lib.ValueIdx

namespace Cert.Seesaw

open Idealize.ShloMosaic

/-- A 32-bit word that is, as a signed number, at least 0 and below 2048 has unsigned value below 2048:
    its sign bit is clear (else it would read negative), so its signed and unsigned readings agree. -/
theorem toNat_lt_of_signed_range (w : BitVec 32) (h0 : IntOp.cmpi .sge w 0#32 = 1#1)
    (h1 : IntOp.cmpi .slt w 2048#32 = 1#1) : w.toNat < 2048 := by
  simp only [IntOp.cmpi, StableHlo.Predicate.ofBool_eq_one_iff, BitVec.sle, BitVec.slt, decide_eq_true_eq] at h0 h1
  have z : (0#32 : BitVec 32).toInt = 0 := by decide
  have k : (2048#32 : BitVec 32).toInt = 2048 := by decide
  rw [z] at h0
  rw [k] at h1
  rw [BitVec.toInt_eq_toNat_cond] at h0 h1
  split at h0 <;> omega

/-- The precondition's label half: when the printed predicate holds, every label is the word of a natural number
    below 2048 (the predicate says 0 ≤ l < 2048 of each label l, signed; such a word is its own unsigned value). -/
theorem label_in_range {F : FTy → Type} [FloatOps F] [Cert.Pre_finite_inputs.Facts]
    (x : FVec F Cert.Pre_finite_inputs.S8192x2048 .f32) (lab : IVec Cert.Pre_finite_inputs.S8192 32)
    (h : Cert.Pre_finite_inputs.fn (F := F) x lab = fun _ => 1#1) (n : Cert.Pre_finite_inputs.S8192.Idx) :
    ∃ y : Fin 2048, lab n = BitVec.ofNat 32 y.val := by
  have h0 := congrFun h ValueIdx.ix0
  dsimp only [Cert.Pre_finite_inputs.fn] at h0
  -- the outer conjunction: keep the label half, the `all` over the labels
  have hall := (IntOp.andi_eq_one.1 h0).2
  -- the `all` came out 1: the bit at position n is 1
  haveI : Subsingleton Cert.Pre_finite_inputs.S_.Idx := ⟨fun a b => funext fun d => d.elim0⟩
  have hn := Host.reduce_andi_all _ _ _ _ _ hall n
  -- that bit is the conjunction of the two comparisons against the broadcast constants
  obtain ⟨hge, hlt⟩ := IntOp.andi_eq_one.1 hn
  have hlo : IntOp.cmpi .sge (lab n) 0#32 = 1#1 := hge
  have hhi : IntOp.cmpi .slt (lab n) 2048#32 = 1#1 := hlt
  refine ⟨⟨(lab n).toNat, toNat_lt_of_signed_range _ hlo hhi⟩, ?_⟩
  exact BitVec.eq_of_toNat_eq (by simp only [BitVec.toNat_ofNat]; omega)

end Cert.Seesaw
-- ==== Proof.Spec.lean ====
/-
  The mathematics of the seesaw loss, row by row, over the extended reals.

  For one row of logits `x : Fin 2048 → EReal`, its label word `l` and a weight matrix `w` (entry `w j k` the
  mitigation factor of class `k` seen from class `j`):
    * `hot l j` is the one-hot indicator of class `j`;
    * `top x` is the row's largest logit and `ex x j = exp (x j - top x)` the shifted exponential;
    * `denom x l w j = ∑ k, ((1 - hot l k) * ex x k) * w j k + ex x j`;
    * `logp x l w j = log (ex x j / (denom x l w j + ε) + ε)`.
  The row's loss is spelt in two ways: `0 - ∑ j, hot l j * logp j` (a sum negated at the end) and
  `0 + ∑ j, (-(hot l j)) * logp j` (every term negated first). For a label inside the class range the indicator has
  exactly one entry `1`, both sums have one term that is not zero, and both spellings are `-(logp l)`: no
  finiteness of the logarithms is used, only `0 * a = 0` and `1 * a = a` on the extended reals.
-/
import Idealize.ShloMosaic.PureOps.Ideal
import Idealize.ShloMosaic.PureOps.Ideal.Laws
import Idealize.ShloMosaic.Lib.ValueIdx
import Mathlib.Algebra.BigOperators.Group.Finset.Basic
import Mathlib.Data.EReal.Basic

noncomputable section

namespace Cert.Seesaw

open Idealize.ShloMosaic

/-- The one-hot indicator: `1` when the label word is the class number, `0` otherwise. -/
def hot (l : BitVec 32) (j : Fin 2048) : EReal := if l = BitVec.ofNat 32 j.val then 1 else 0

/-- An equality test widened to a word and read as a signed integer is the indicator. -/
theorem hot_signed (l : BitVec 32) (j : Fin 2048) :
    FloatOps.sitofp (F := Ideal) .f32 ((IntOp.cmpi .eq l (BitVec.ofNat 32 j.val)).setWidth 32) = hot l j := by
  unfold hot
  show (((((IntOp.cmpi .eq l (BitVec.ofNat 32 j.val)).setWidth 32).toInt : ℤ) : ℝ) : EReal) = _
  by_cases h : l = BitVec.ofNat 32 j.val
  · rw [if_pos h]
    have : IntOp.cmpi .eq l (BitVec.ofNat 32 j.val) = 1#1 := by simp [IntOp.cmpi, h]
    rw [this]
    norm_num
  · rw [if_neg h]
    have hb : (l == BitVec.ofNat 32 j.val) = false := beq_eq_false_iff_ne.mpr h
    have : IntOp.cmpi .eq l (BitVec.ofNat 32 j.val) = 0#1 := by
      show BitVec.ofBool (l == BitVec.ofNat 32 j.val) = 0#1
      rw [hb]; rfl
    rw [this]
    norm_num

/-- An equality test read as an unsigned one-bit integer is the indicator. -/
theorem hot_unsigned (l : BitVec 32) (j : Fin 2048) :
    FloatOps.uitofp (F := Ideal) .f32 (IntOp.cmpi .eq l (BitVec.ofNat 32 j.val)) = hot l j := by
  unfold hot
  show ((((IntOp.cmpi .eq l (BitVec.ofNat 32 j.val)).toNat : ℕ) : ℝ) : EReal) = _
  by_cases h : l = BitVec.ofNat 32 j.val
  · rw [if_pos h]
    have : IntOp.cmpi .eq l (BitVec.ofNat 32 j.val) = 1#1 := by simp [IntOp.cmpi, h]
    rw [this]
    norm_num
  · rw [if_neg h]
    have hb : (l == BitVec.ofNat 32 j.val) = false := beq_eq_false_iff_ne.mpr h
    have : IntOp.cmpi .eq l (BitVec.ofNat 32 j.val) = 0#1 := by
      show BitVec.ofBool (l == BitVec.ofNat 32 j.val) = 0#1
      rw [hb]; rfl
    rw [this]
    norm_num

/-- For a label that is a class number, the indicator is the Kronecker delta of the class numbers. -/
theorem hot_ofNat (y j : Fin 2048) : hot (BitVec.ofNat 32 y.val) j = if y = j then 1 else 0 := by
  unfold hot
  have hy := y.isLt
  have hj := j.isLt
  by_cases h : y = j
  · subst h; simp
  · rw [if_neg h, if_neg]
    intro he
    apply h
    have := congrArg BitVec.toNat he
    simp only [BitVec.toNat_ofNat] at this
    rw [Nat.mod_eq_of_lt (by omega), Nat.mod_eq_of_lt (by omega)] at this
    exact Fin.ext this

/-- The row's largest logit: the fold of `max` from `-∞` over the row. -/
def top (x : Fin 2048 → EReal) : EReal :=
  (Finset.univ : Finset (Fin 2048)).fold max (Ideal.ofBits .f32 0xFF800000#32) x

/-- The shifted exponential `exp (x j - top x)`. -/
def ex (x : Fin 2048 → EReal) (j : Fin 2048) : EReal := Ideal.exp (x j - top x)

/-- The unit of the complement `1 - hot`. -/
def one : EReal := Ideal.ofBits .f32 0x3F800000#32
/-- The small constant added to the denominator and under the logarithm. -/
def eps : EReal := Ideal.ofBits .f32 0x358637BD#32

/-- The exponential of a class other than the label's, and `0` at the label's. -/
def masked (x : Fin 2048 → EReal) (l : BitVec 32) (k : Fin 2048) : EReal := (one - hot l k) * ex x k

/-- The seesaw denominator of class `j`: the other classes' exponentials weighted by `w j`, plus its own. -/
def denom (x : Fin 2048 → EReal) (l : BitVec 32) (w : Fin 2048 → Fin 2048 → EReal) (j : Fin 2048) : EReal :=
  (∑ k : Fin 2048, masked x l k * w j k) + ex x j

/-- The logarithm of the mitigated probability of class `j`. -/
def logp (x : Fin 2048 → EReal) (l : BitVec 32) (w : Fin 2048 → Fin 2048 → EReal) (j : Fin 2048) : EReal :=
  Ideal.log (Ideal.div (ex x j) (denom x l w j + eps) + eps)

/-- The row's loss with the sum negated at the end. -/
def lossNegSum (x : Fin 2048 → EReal) (l : BitVec 32) (w : Fin 2048 → Fin 2048 → EReal) : EReal :=
  Ideal.ofBits .f32 0x00000000#32 - ∑ j : Fin 2048, hot l j * logp x l w j

/-- The row's loss with every term negated first, summed from `0`. -/
def lossSumNeg (x : Fin 2048 → EReal) (l : BitVec 32) (w : Fin 2048 → Fin 2048 → EReal) : EReal :=
  Ideal.ofBits .f32 0x00000000#32 + ∑ j : Fin 2048, (-(hot l j)) * logp x l w j

/-- THE LAW: for a label inside the class range both spellings are `-(logp l)`, the one term the indicator keeps. -/
theorem lossNegSum_eq_lossSumNeg (x : Fin 2048 → EReal) (l : BitVec 32) (w : Fin 2048 → Fin 2048 → EReal)
    (y : Fin 2048) (hl : l = BitVec.ofNat 32 y.val) : lossNegSum x l w = lossSumNeg x l w := by
  subst hl
  unfold lossNegSum lossSumNeg
  have h1 : ∑ j : Fin 2048, hot (BitVec.ofNat 32 y.val) j * logp x (BitVec.ofNat 32 y.val) w j
      = logp x (BitVec.ofNat 32 y.val) w y := by
    rw [Finset.sum_eq_single y]
    · rw [hot_ofNat, if_pos rfl, one_mul]
    · intro j _ hj
      rw [hot_ofNat, if_neg (fun e => hj e.symm), zero_mul]
    · intro h; exact absurd (Finset.mem_univ y) h
  have h2 : ∑ j : Fin 2048, (-(hot (BitVec.ofNat 32 y.val) j)) * logp x (BitVec.ofNat 32 y.val) w j
      = -(logp x (BitVec.ofNat 32 y.val) w y) := by
    rw [Finset.sum_eq_single y]
    · rw [hot_ofNat, if_pos rfl, neg_mul, one_mul]
    · intro j _ hj
      rw [hot_ofNat, if_neg (fun e => hj e.symm), neg_zero, zero_mul]
    · intro h; exact absurd (Finset.mem_univ y) h
  rw [h1, h2, Ideal.ofBits_zero_f32, zero_add, sub_eq_add_neg, zero_add]

end Cert.Seesaw

end
-- ==== Proof.LibRowReduce.lean ====
/-
  A REDUCTION ALONG THE ROWS OF A TABLE, KEPT AS A COLUMN, read at an element.

  A body reduces a block [R, D] over its second axis to a vector [R] and reshapes that to a column [R, 1]
  (a sum or a maximum "with the axis kept").  Read at (p, 0) the column is the vector at p; the vector at p is,
  for a sum, the sum over k < D of the block at (p, k), and for a maximum, the fold of max from the starting value
  over the same entries.  The index inserted at k into the reduced index (p) is (p, k).
-/
import Idealize.ShloMosaic.PureOps.Ideal
import Idealize.ShloMosaic.PureOps.Ideal.Laws
import Idealize.ShloMosaic.Lib.Pipeline.Value
import Idealize.ShloMosaic.Lib.ValueIdx

noncomputable section

namespace Cert.LibRowReduce

open Idealize.ShloMosaic Idealize.ShloMosaic.ValueIdx

/-- A vector [a] cast to a column [a, 1] reads, at (i, u), the vector at i, whatever the unit coordinate u. -/
theorem column_of_vector_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index of the block that reduces into row p at position k of the reduced axis is (p, k). -/
theorem lift_row {R D : Nat} (h : (⟨2, ![R, D]⟩ : Shape).Reduces [1] ⟨1, ![R]⟩) (p : Fin R) (k : Fin D) :
    h.lift (ix1 p) k = ix2 p k := by
  funext a; apply Fin.ext
  match a with
  | ⟨0, _⟩ => rfl
  | ⟨1, _⟩ => rfl

/-- A sum over the second axis of a block, at row p: the sum over k of the block at (p, k). -/
theorem row_sum_apply {R D : Nat} {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.add.neutral φ hφ)
    (p : Fin R) :
    multiReduction .add [1] ⟨1, ![R]⟩ src acc h hφ hacc (ix1 p) = ∑ k : Fin D, src (ix2 p k) := by
  refine (Ideal.multiReduction_add_single src acc h hφ hacc (ix1 p)).trans ?_
  show (∑ k : Fin D, src (h.lift (ix1 p) k)) = _
  exact Finset.sum_congr rfl fun k _ => congrArg src (lift_row h p k)

/-- A maximum over the second axis of a block, at row p: the fold of max, from the starting value, over the block's
    entries (p, k). -/
theorem row_max_apply {R D : Nat} {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.maximumf.neutral φ hφ)
    (p : Fin R) :
    multiReduction .maximumf [1] ⟨1, ![R]⟩ src acc h hφ hacc (ix1 p)
      = (Finset.univ : Finset (Fin D)).fold max (Ideal.ofBits φ acc) (fun k => src (ix2 p k)) := by
  refine (Ideal.multiReduction_maximumf_single src acc h hφ hacc (ix1 p)).trans ?_
  show (Finset.univ : Finset (Fin D)).fold max (Ideal.ofBits φ acc) (src ∘ h.lift (ix1 p)) = _
  rw [show src ∘ h.lift (ix1 p) = fun k => src (ix2 p k) from funext fun k => congrArg src (lift_row h p k)]
  rfl

end Cert.LibRowReduce

end
-- ==== Proof.LibBlockOps.lean ====
/-
  A COLUMN AND A ROW SPREAD OVER A TABLE, read at an element.

  A kernel body scales the rows of a block `[R, D]` by a column `[R, 1]` and adds a row `[1, D]` to each of its rows; both
  operands are first spread to the block's shape. Read at `(p, q)` the spread column is the column's entry `(p, 0)` and the
  spread row is the row's entry `(0, q)`: a spread repeats the operand along each of its unit axes.
-/
import Idealize.ShloMosaic.Lib.Pipeline.Value
import Idealize.ShloMosaic.Lib.ValueIdx

noncomputable section

namespace Cert.LibBlockOps

open Idealize.ShloMosaic Idealize.ShloMosaic.ValueIdx

/-- The one index of a unit axis. -/
abbrev u1 : Fin 1 := ⟨0, Nat.one_pos⟩

/-- A column `[R, 1]` spread to `[R, D]`, read at `(p, q)`: the column at `(p, 0)`. -/
theorem col_apply {α : Type} {R D : Nat} (x : (⟨2, ![R, 1]⟩ : Shape).Idx → α)
    (h2 : (⟨2, ![R, 1]⟩ : Shape).Broadcasts ⟨2, ![R, D]⟩) (p : Fin R) (q : Fin D) :
    broadcastTo ⟨2, ![R, D]⟩ x h2 (ix2 p q) = x (ix2 p u1) := by
  refine broadcastTo_apply x h2 (ix2 p q) (ix2 p u1) fun a => ?_
  match a with
  | ⟨0, _⟩ =>
    show p.val = if R = 1 then 0 else p.val
    split
    · have := p.isLt; omega
    · rfl
  | ⟨1, _⟩ =>
    show 0 = if (1 : Nat) = 1 then 0 else q.val
    rw [if_pos rfl]

/-- A row `[1, D]` spread to `[R, D]`, read at `(p, q)`: the row at `(0, q)`. -/
theorem row_apply {α : Type} {R D : Nat} (x : (⟨2, ![1, D]⟩ : Shape).Idx → α)
    (h2 : (⟨2, ![1, D]⟩ : Shape).Broadcasts ⟨2, ![R, D]⟩) (p : Fin R) (q : Fin D) :
    broadcastTo ⟨2, ![R, D]⟩ x h2 (ix2 p q) = x (ix2 u1 q) := by
  refine broadcastTo_apply x h2 (ix2 p q) (ix2 u1 q) fun a => ?_
  match a with
  | ⟨0, _⟩ =>
    show 0 = if (1 : Nat) = 1 then 0 else p.val
    rw [if_pos rfl]
  | ⟨1, _⟩ =>
    show q.val = if D = 1 then 0 else q.val
    split
    · have := q.isLt; omega
    · rfl

end Cert.LibBlockOps

end
-- ==== Proof.KernelPayload.lean ====
/-
  What the kernel body stores, read at a row.

  The body's stored column is a function of the three loaded blocks: the logits block `x0 : [256, 2048]`, the labels
  column `x1 : [256, 1]` and the transposed weight matrix `x2 : [2048, 2048]`. The intermediate arrays are named here
  (`hotv`, `expv`, `mm`, `logv`), the stored value is shown to be their composition by unfolding, and each is read
  at an index: the one-hot block at `(r, j)` is the indicator of the row's label, the exponential block is
  `exp (x0 r j - max_k x0 r k)`, the matrix product is the sum over `k` of the masked exponentials times `x2 k j`,
  and the stored entry of row `r` is `0 - ∑ j, hot j * log (…)`: the row loss `lossNegSum` of the specification with
  weights `w j k = x2 k j`.
-/
import proofs.«426053_j16621523436028_1_alg».proof.Proof.Gen.KernelIdeal.Skeleton
import proofs.«426053_j16621523436028_1_alg».proof.Proof.Spec
import proofs.«426053_j16621523436028_1_alg».proof.Proof.LibRowReduce
import proofs.«426053_j16621523436028_1_alg».proof.Proof.LibBlockOps
import Idealize.ShloMosaic.Lib.ValueLayout
import Idealize.ShloMosaic.Lib.Pipeline.Value
import Idealize.ShloMosaic.Lib.ValueIdx
import Idealize.ShloMosaic.PureOps.Ideal.Laws

noncomputable section

namespace Cert.Seesaw.Payload

open Idealize.ShloMosaic Idealize.ShloMosaic.ValueIdx Cert.KernelIdeal Cert.Seesaw
open Cert.KernelIdeal.Facts₀

/-- An exponential at an index is the exponential of the element … -/
theorem exp_apply {s : Shape} {φ : FTy} (v : FVec Ideal s φ) (i : s.Idx) : exp v i = Ideal.exp (v i) := rfl
/-- … a logarithm the logarithm of the element … -/
theorem log_apply {s : Shape} {φ : FTy} (v : FVec Ideal s φ) (i : s.Idx) : log v i = Ideal.log (v i) := rfl
/-- … and an integer comparison compares the elements. -/
theorem cmpi_apply {s : Shape} {w : Nat} (p : CmpIPredicate) (a b : IVec s w) (i : s.Idx) : cmpi p a b i = IntOp.cmpi p (a i) (b i) := rfl

/-- The block of one-hot indicators: the labels column spread over the classes and compared with the class number. -/
def hotv (x1 : Vec Ideal S256x1 .i32) : FVec Ideal S256x2048 .f32 :=
  sitofp .f32 (extui 32 (cmpi .eq (broadcastTo S256x2048 (shapeCast S256x1 x1 shapeCasts_S256x1_S256x1) broadcasts_S256x1_S256x2048)
    (iota .tc S256x2048 32 [1] iota_S256x2048_d1_w32)) natLt_1_32)

/-- The block of shifted exponentials `exp (x0 - rowmax x0)`. -/
def expv (x0 : Vec Ideal S256x2048 .f32) : FVec Ideal S256x2048 .f32 :=
  exp (subf x0 (broadcastTo S256x2048 (shapeCast S256x1
    (multiReduction .maximumf [1] S256 x0 0xFF800000#32 reduces_S256x2048_S256 (.inl rfl) rfl) shapeCasts_S256_S256x1)
    broadcasts_S256x1_S256x2048))

/-- The masked exponentials times the transposed weights: the matrix product of the body. -/
def mm (x0 : Vec Ideal S256x2048 .f32) (x1 : Vec Ideal S256x1 .i32) (x2 : Vec Ideal S2048x2048 .bf16) : FVec Ideal S256x2048 .f32 :=
  matmul dot_S256x2048_S2048x2048_S256x2048_1_0_0_1_n_n none
    (truncf .bf16 (mulf (subf (broadcast S256x2048 (Scalar.ofBits .f32 0x3F800000#32)) (hotv x1)) (expv x0)) bitsLt_bf16_f32)
    (shapeCast S2048x2048 x2 shapeCasts_S2048x2048_S2048x2048 : FVec Ideal S2048x2048 .bf16)
    (constant S256x2048 .f32 0x00000000#32)

/-- The block of logarithms of the mitigated probabilities. -/
def logv (x0 : Vec Ideal S256x2048 .f32) (x1 : Vec Ideal S256x1 .i32) (x2 : Vec Ideal S2048x2048 .bf16) : FVec Ideal S256x2048 .f32 :=
  log (addf (divf (expv x0) (addf (addf (mm x0 x1 x2) (expv x0)) (broadcast S256x2048 (Scalar.ofBits .f32 0x358637BD#32))))
    (broadcast S256x2048 (Scalar.ofBits .f32 0x358637BD#32)))

/-- The stored column is `0 -` the row sums of `hotv * logv`, cast to a column. -/
theorem pay_eq (x0 : Vec Ideal S256x2048 .f32) (x1 : Vec Ideal S256x1 .i32) (x2 : Vec Ideal S2048x2048 .bf16) :
    Cert.KernelIdeal.Gen.k0_pay1 (F := Ideal) x0 x1 x2
      = subf (broadcast S256x1 (Scalar.ofBits .f32 0x00000000#32))
          (shapeCast S256x1 (multiReduction .add [1] S256 (mulf (hotv x1) (logv x0 x1 x2)) 0x00000000#32
            reduces_S256x2048_S256 (.inl rfl) rfl) shapeCasts_S256_S256x1) := by
  unfold Cert.KernelIdeal.Gen.k0_pay1 logv mm expv hotv
  rfl

/-- The one-hot block at `(r, j)` is the indicator of class `j` for row `r`'s label. -/
theorem hotv_apply (x1 : Vec Ideal S256x1 .i32) (r : Fin 256) (j : Fin 2048) :
    hotv x1 (ix2 r j) = hot (x1 (ix2 r Cert.LibBlockOps.u1)) j := by
  unfold hotv
  rw [sitofp_apply, extui_apply, cmpi_apply, Cert.LibBlockOps.col_apply, shapeCast_self, iota_single_apply]
  exact hot_signed _ j

/-- The exponential block at `(r, j)` is the shifted exponential of row `r`. -/
theorem expv_apply (x0 : Vec Ideal S256x2048 .f32) (r : Fin 256) (j : Fin 2048) :
    expv x0 (ix2 r j) = ex (fun k => x0 (ix2 r k)) j := by
  unfold expv ex top
  rw [exp_apply, subf_apply, Cert.LibBlockOps.col_apply, Cert.LibRowReduce.column_of_vector_apply]
  exact congrArg (fun z => Ideal.exp (x0 (ix2 r j) - z)) (Cert.LibRowReduce.row_max_apply x0 _ _ _ _ r)

theorem lhs_mm_0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem lhs_mm_1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
theorem rhs_mm_0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
theorem rhs_mm_1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- The matrix product at `(r, j)`: the sum over `k` of row `r`'s masked exponentials times `x2 k j`. -/
theorem mm_apply (x0 : Vec Ideal S256x2048 .f32) (x1 : Vec Ideal S256x1 .i32) (x2 : Vec Ideal S2048x2048 .bf16) (r : Fin 256) (j : Fin 2048) :
    mm x0 x1 x2 (ix2 r j)
      = ∑ k : Fin 2048, masked (fun k => x0 (ix2 r k)) (x1 (ix2 r Cert.LibBlockOps.u1)) k * x2 (ix2 k j) := by
  unfold mm
  rw [shapeCast_self]
  generalize hL : (truncf .bf16 (mulf (subf (broadcast S256x2048 (Scalar.ofBits .f32 0x3F800000#32)) (hotv x1)) (expv x0)) bitsLt_bf16_f32 : FVec Ideal S256x2048 .bf16) = L
  simp only [matmul]
  rw [Ideal.matmul_constant_zero_apply, ← Equiv.sum_comp (ValueIdx.contrEquiv1 dot_S256x2048_S2048x2048_S256x2048_1_0_0_1_n_n 2048 rfl rfl).symm]
  refine Finset.sum_congr rfl fun k _ => ?_
  have hk := ValueIdx.contrEquiv1_symm_val dot_S256x2048_S2048x2048_S256x2048_1_0_0_1_n_n 2048 rfl rfl k
  have el : dot_S256x2048_S2048x2048_S256x2048_1_0_0_1_n_n.lhsIdx (ix2 r j) ((ValueIdx.contrEquiv1 dot_S256x2048_S2048x2048_S256x2048_1_0_0_1_n_n 2048 rfl rfl).symm k) = ix2 r k := funext fun a => Fin.ext (by
    match a with
    | ⟨0, _⟩ => exact lhs_mm_0 _ _
    | ⟨1, _⟩ => exact (lhs_mm_1 _ _).trans hk)
  have er : dot_S256x2048_S2048x2048_S256x2048_1_0_0_1_n_n.rhsIdx (ix2 r j) ((ValueIdx.contrEquiv1 dot_S256x2048_S2048x2048_S256x2048_1_0_0_1_n_n 2048 rfl rfl).symm k) = ix2 k j := funext fun a => Fin.ext (by
    match a with
    | ⟨0, _⟩ => exact (rhs_mm_0 _ _).trans hk
    | ⟨1, _⟩ => exact rhs_mm_1 _ _)
  rw [el, er, ← hL, truncf_apply, mulf_apply, subf_apply, broadcast_apply, hotv_apply, expv_apply]
  rfl

/-- The logarithm block at `(r, j)` is `logp` of the specification with weights `w j k = x2 k j`. -/
theorem logv_apply (x0 : Vec Ideal S256x2048 .f32) (x1 : Vec Ideal S256x1 .i32) (x2 : Vec Ideal S2048x2048 .bf16) (r : Fin 256) (j : Fin 2048) :
    logv x0 x1 x2 (ix2 r j)
      = logp (fun k => x0 (ix2 r k)) (x1 (ix2 r Cert.LibBlockOps.u1)) (fun j k => x2 (ix2 k j)) j := by
  unfold logv logp denom
  simp only [log_apply, addf_apply, divf_apply, broadcast_apply, mm_apply, expv_apply]
  rfl

/-- THE STORED ENTRY OF ROW `r`: the row loss with the sum negated at the end, over the row of the logits block, the
    row's label and the weights `w j k = x2 k j`. -/
theorem pay_row (x0 : Vec Ideal S256x2048 .f32) (x1 : Vec Ideal S256x1 .i32) (x2 : Vec Ideal S2048x2048 .bf16) (r : Fin 256) (u : Fin 1) :
    Cert.KernelIdeal.Gen.k0_pay1 (F := Ideal) x0 x1 x2 (ix2 r u)
      = lossNegSum (fun k => x0 (ix2 r k)) (x1 (ix2 r Cert.LibBlockOps.u1)) (fun j k => x2 (ix2 k j)) := by
  rw [pay_eq]
  unfold lossNegSum
  rw [subf_apply, broadcast_apply, Cert.LibRowReduce.column_of_vector_apply]
  refine (congrArg (fun z => Ideal.ofBits .f32 0x00000000#32 - z)
    (Cert.LibRowReduce.row_sum_apply (mulf (hotv x1) (logv x0 x1 x2)) _ _ _ _ r)).trans ?_
  refine congrArg (fun z => Ideal.ofBits .f32 0x00000000#32 - z) (Finset.sum_congr rfl fun j _ => ?_)
  rw [mulf_apply, hotv_apply, logv_apply]

end Cert.Seesaw.Payload

end
-- ==== Proof.LibRowOps.lean ====
/-
  ROWS OF A TABLE GATHERED BY INDEX AND ADDED BACK BY INDEX, and the linearity that lets a matrix product pass through
  such a sum.

  A graph layer reads rows of a table `x : [N, D]` at source indices (`x[src]`, a gather of whole rows) and adds rows
  into a table at destination indices (a segment sum: a scatter with an add body). This file reads the two operations
  at one element, generically in the sizes: the gather of whole rows is the table's row at the start index, read signed
  and clamped into `[0, N − 1]`; the scatter-add of whole rows adds to element `(n, c)` the updates' elements `(e, c)`
  over the edges `e` whose index, read signed, is exactly `n` (an index outside `[0, N − 1]` hits no row). Last,
  the linearity law over the reals inside the extended reals: a row plus a sum of rows, times a matrix, is the row times
  the matrix plus the sum of the rows times the matrix. In the extended reals multiplication does not distribute over
  addition in general (`⊤ + ⊥`), so the law is stated for coerced reals, where it is the reals' own.
-/
import Idealize.ShloMosaic.PureOps.Ideal
import Idealize.ShloMosaic.PureOps.Ideal.Laws
import Idealize.ShloMosaic.Lib.ValueIdx
import Mathlib.Data.EReal.Basic
import Mathlib.Algebra.BigOperators.Group.Finset.Basic
import Mathlib.Algebra.BigOperators.Group.Finset.Sigma
import Mathlib.Algebra.BigOperators.Ring.Finset

noncomputable section

open scoped BigOperators

namespace Cert.LibRowOps

open Idealize.ShloMosaic Idealize.ShloMosaic.ValueIdx

/-! ## Linearity over the reals inside the extended reals -/

/-- A finite sum of coerced reals is the coercion of the real sum (the coercion `ℝ → EReal` is additive, and a finite
    sum is an iterated addition). -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- THE LINEARITY LAW. For real tables `xr : [N, A]`, `wr : [A, B]`, a source map `s` on the edges and any decidable
    relation `hit e n` ("edge `e` lands on row `n`"): the row `n` plus the sum of the source rows of the edges that
    hit `n`, multiplied by `wr`, is the product of row `n` plus the sum over those edges of the products of their
    source rows. All terms are coerced reals, so both sides are the coercion of one real number, and there the
    statement is distributivity and an exchange of two finite sums. -/
theorem matvec_segsum {N A B E : Nat} (xr : Fin N → Fin A → ℝ) (wr : Fin A → Fin B → ℝ) (s : Fin E → Fin N)
    (hit : Fin E → Fin N → Prop) [∀ e n, Decidable (hit e n)] (n : Fin N) (j : Fin B) :
    ∑ k : Fin A, (((xr n k : ℝ) : EReal) + ∑ e ∈ Finset.univ.filter (hit · n), ((xr (s e) k : ℝ) : EReal))
        * ((wr k j : ℝ) : EReal)
      = (∑ k : Fin A, ((xr n k : ℝ) : EReal) * ((wr k j : ℝ) : EReal))
        + ∑ e ∈ Finset.univ.filter (hit · n), ∑ k : Fin A, ((xr (s e) k : ℝ) : EReal) * ((wr k j : ℝ) : EReal) := by
  -- every term is a coerced real: push the coercion outside, to one real number on each side
  simp only [coe_sum, ← EReal.coe_add, ← EReal.coe_mul]
  congr 1
  -- in ℝ: distribute the product over the sum, split the outer sum, exchange the two sums
  simp only [add_mul, Finset.sum_add_distrib, Finset.sum_mul]
  rw [Finset.sum_comm]

/-! ## The gather of whole rows, read at an element -/

/-- The dimension numbers of `x[src]` for a table `x : [N, D]` and start indices `src : [E, 1]`, result `[E, D]`:
    the result's axis 1 is the offset axis (a whole row of width `D`), the table's axis 0 is collapsed (slice size 1)
    and is the one axis the start index names, the index vector lies on axis 1 of the start indices. The conditions
    `wf` are decided on a program's literal sizes. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, c)`: the table at row `src[e, 0]`, read as a signed integer and clamped into
    `[0, N − 1]`, and column `c`. On the table's axis 0 the operand index is the clamped start (no batching axis; the
    axis is collapsed, so no offset); on axis 1 the start is `0` (the start index does not name it) and the offset is
    the result's coordinate on its one offset axis. -/
theorem rowGather_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (y : (⟨2, ![E, D]⟩ : Shape).Idx) :
    Host.gather (rowGatherDims N E D wf) x idx y
      = x (ix2 ⟨min (idx (ix2 (y 0) ⟨0, Nat.one_pos⟩)).toInt.toNat (N - 1), by omega⟩ (y 1)) := by
  unfold Host.gather
  congr 1
  funext a
  refine Fin.ext ?_
  match a with
  | ⟨0, _⟩ =>
    -- the row: start + 0 + 0, the start read at `[e, 0]` and clamped to `N − 1`
    show (rowGatherDims N E D wf).start y idx 0 + (rowGatherDims N E D wf).batchCoord y 0
      + (rowGatherDims N E D wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx y ⟨List.idxOf (0 : Fin 2) (rowGatherDims N E D wf).startIndexMap,
        List.idxOf_lt_length_iff.2 (List.mem_singleton.mpr rfl)⟩ = ix2 (y 0) ⟨0, Nat.one_pos⟩ := by
      funext b; refine Fin.ext ?_
      match b with
      | ⟨0, _⟩ => rfl
      | ⟨1, _⟩ => rfl
    rw [hsi]
    rfl
  | ⟨1, _⟩ =>
    -- the column: 0 + 0 + the result's coordinate on its offset axis
    show (rowGatherDims N E D wf).start y idx 1 + (rowGatherDims N E D wf).batchCoord y 1
      + (rowGatherDims N E D wf).offCoord y 1 = _
    rw [GatherDims.batchCoord_eq_zero _ _ _ List.not_mem_nil]
    unfold GatherDims.start
    rw [dif_neg (show (1 : Fin 2) ∉ (rowGatherDims N E D wf).startIndexMap from
      (show ¬ ((1 : Fin 2) ∈ ([0] : List (Fin 2))) by decide))]
    unfold GatherDims.offCoord
    rw [dif_pos (show (1 : Fin 2) ∈ (rowGatherDims N E D wf).sKept from (GatherDims.mem_sKept _ _).mpr
      ⟨(show ¬ ((1 : Fin 2) ∈ ([0] : List (Fin 2))) by decide), List.not_mem_nil⟩)]
    simp only [Nat.add_zero, Nat.zero_add]
    rfl

/-! ## The scatter-add of whole rows, read at an element -/

/-- WHERE AN UPDATE LANDS, for any scatter dimension numbers: update index `j` lands at operand index `i` exactly
    when on every operand axis the start (read signed, not clamped) plus the window coordinate is `i`'s coordinate.
    (The definition asks the sum to be inside the operand on every axis and then takes it as the index; a sum that equals
    a coordinate of an index is inside.) -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      have hf := Option.some.inj h
      intro a
      have := congrArg Fin.val (congrFun hf a)
      simp only at this
      have h0 := (hh a).1
      omega
    · exact absurd h (by simp)
  · intro h
    have hh : ∀ a, 0 ≤ d.start j idx a + d.window j a ∧ d.start j idx a + d.window j a < s.size a := by
      intro a; rw [h a]; exact ⟨Int.natCast_nonneg _, by exact_mod_cast (i a).isLt⟩
    rw [dif_pos hh]
    congr 1
    funext a; refine Fin.ext ?_
    show (d.start j idx a + d.window j a).toNat = (i a).val
    rw [h a]; simp

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a segment sum of rows: operand `[N, D]`, scatter indices `[E, 1]`, updates `[E, D]`:
    the updates' axis 1 is the window axis (a whole row), the operand's axis 0 is the inserted one and the one axis the
    scatter index names, the index vector lies on axis 1 of the scatter indices. The conditions `wf` are decided on a
    program's literal sizes. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Scatter
variable {N E D w : Nat} (wf : ScatterDims.WF ⟨2, ![N, D]⟩ ⟨2, ![E, 1]⟩ ⟨2, ![E, D]⟩ [1] [0] [0] 1)
  (j : (⟨2, ![E, D]⟩ : Shape).Idx) (idx : IVec ⟨2, ![E, 1]⟩ w)

/-- On the operand's axis 0 the start of update `(e, c)` is the scatter index `dst[e, 0]`, read signed. -/
theorem rowScatter_start0 :
    (rowScatterDims N E D wf).start j idx 0 = (idx (ix2 (j 0) ⟨0, Nat.one_pos⟩)).toInt := by
  unfold ScatterDims.start
  rw [dif_pos (show (0 : Fin 2) ∈ (rowScatterDims N E D wf).scatterDimsToOperandDims from List.mem_singleton.mpr rfl)]
  have hsi : (rowScatterDims N E D wf).siIdx j ⟨List.idxOf (0 : Fin 2) (rowScatterDims N E D wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the operand's axis 1, which the scatter index does not name, the start is `0`. -/
theorem rowScatter_start1 : (rowScatterDims N E D wf).start j idx 1 = 0 := by
  unfold ScatterDims.start
  rw [dif_neg (show (1 : Fin 2) ∉ (rowScatterDims N E D wf).scatterDimsToOperandDims from
    (show ¬ ((1 : Fin 2) ∈ ([0] : List (Fin 2))) by decide))]

/-- On the operand's axis 0, an inserted axis, the window coordinate is `0`. -/
theorem rowScatter_window0 : (rowScatterDims N E D wf).window j 0 = 0 := by
  unfold ScatterDims.window
  rw [dif_neg (fun h => (mem_kept _ _).mp h (List.mem_singleton.mpr rfl))]

/-- On the operand's axis 1 the window coordinate is the update's column. -/
theorem rowScatter_window1 : (rowScatterDims N E D wf).window j 1 = (j 1).val := by
  unfold ScatterDims.window
  rw [dif_pos (show (1 : Fin 2) ∈ (rowScatterDims N E D wf).sKept from (mem_kept _ _).mpr
    (show ¬ ((1 : Fin 2) ∈ ([0] : List (Fin 2))) by decide))]
  rfl

/-- WHERE A ROW UPDATE LANDS: update `(e, c)` lands at operand element `(n, c')` exactly when the scatter index
    `dst[e, 0]`, read signed, is `n` and `c = c'`. In particular a negative index, or one that is `N` or more, lands
    nowhere. -/
theorem rowScatter_resultIdx (i : (⟨2, ![N, D]⟩ : Shape).Idx) :
    (rowScatterDims N E D wf).resultIdx? j idx = some i ↔
      (idx (ix2 (j 0) ⟨0, Nat.one_pos⟩)).toInt = ((i 0).val : Int) ∧ (j 1).val = (i 1).val := by
  rw [resultIdx?_eq_some_iff, Fin.forall_fin_two, rowScatter_start0, rowScatter_start1, rowScatter_window0,
    rowScatter_window1]
  constructor
  · rintro ⟨h0, h1⟩; exact ⟨by simpa using h0, by exact_mod_cast (by simpa using h1)⟩
  · rintro ⟨h0, h1⟩
    exact ⟨by simpa using h0, by simpa using (by exact_mod_cast h1 : ((j 1).val : Int) = ((i 1).val : Int))⟩

/-- The same with the update index given by its coordinates `(e, b)`. -/
theorem rowScatter_resultIdx_ix2 (e : Fin E) (b : Fin D) (i : (⟨2, ![N, D]⟩ : Shape).Idx) :
    (rowScatterDims N E D wf).resultIdx? (ix2 e b) idx = some i ↔
      (idx (ix2 e ⟨0, Nat.one_pos⟩)).toInt = ((i 0).val : Int) ∧ b.val = (i 1).val :=
  rowScatter_resultIdx wf (ix2 e b) idx i

/-- THE ROW SCATTER-ADD READ AT `(n, c)`: the operand's element plus the sum, over the edges `e` whose scatter index
    read signed is `n`, of the updates' element `(e, c)`. The sum over the update indices `(e, b)` that land at
    `(n, c)` is a double sum over `e` and `b`; for each `e` the inner sum has at most the one term `b = c`. -/
theorem rowScatterAdd_apply (x : (⟨2, ![N, D]⟩ : Shape).Idx → EReal) (upd : (⟨2, ![E, D]⟩ : Shape).Idx → EReal)
    (i : (⟨2, ![N, D]⟩ : Shape).Idx) :
    Ideal.hostScatterAdd (rowScatterDims N E D wf) x idx upd i
      = x i + ∑ e ∈ Finset.univ.filter (fun e : Fin E => (idx (ix2 e ⟨0, Nat.one_pos⟩)).toInt = ((i 0).val : Int)),
          upd (ix2 e (i 1)) := by
  unfold Ideal.hostScatterAdd
  congr 1
  rw [Finset.sum_filter, Finset.sum_filter, sum_idx2]
  refine Finset.sum_congr rfl fun e _ => ?_
  simp only [rowScatter_resultIdx_ix2]
  by_cases he : (idx (ix2 e ⟨0, Nat.one_pos⟩)).toInt = ((i 0).val : Int)
  · rw [if_pos he]
    rw [Finset.sum_eq_single (show Fin D from i 1)]
    · rw [if_pos ⟨he, rfl⟩]
    · intro b _ hb
      rw [if_neg (fun h => hb (Fin.ext h.2))]
    · intro h; exact absurd (Finset.mem_univ _) h
  · rw [if_neg he]
    exact Finset.sum_eq_zero fun b _ => if_neg (fun h => he h.1)

end Scatter

/-! ## The same three readings for a record that IS one of these dimension numbers

A program prints its dimension numbers as a record of its own, with literal sizes; such a record is one of the two above
by `rfl`, and these forms take the record and that equation. -/

/-- `rowGather_apply` for any record equal to `rowGatherDims N E D wf`. -/
theorem rowGather_apply_of {α : Type} {N E D w : Nat} (hN : 0 < N)
    {wf : GatherDims.WF ⟨2, ![N, D]⟩ ⟨2, ![E, 1]⟩ ⟨2, ![E, D]⟩ [1] [0] [] [0] [] 1 ![1, D]}
    (d : GatherDims ⟨2, ![N, D]⟩ ⟨2, ![E, 1]⟩ ⟨2, ![E, D]⟩) (hd : d = rowGatherDims N E D wf)
    (x : (⟨2, ![N, D]⟩ : Shape).Idx → α) (idx : IVec ⟨2, ![E, 1]⟩ w) (y : (⟨2, ![E, D]⟩ : Shape).Idx) :
    Host.gather d x idx y
      = x (ix2 ⟨min (idx (ix2 (y 0) ⟨0, Nat.one_pos⟩)).toInt.toNat (N - 1), by omega⟩ (y 1)) := by
  subst hd; exact rowGather_apply hN wf x idx y

/-- `rowScatter_resultIdx` for any record equal to `rowScatterDims N E D wf`. -/
theorem rowScatter_resultIdx_of {N E D w : Nat} {wf : ScatterDims.WF ⟨2, ![N, D]⟩ ⟨2, ![E, 1]⟩ ⟨2, ![E, D]⟩ [1] [0] [0] 1}
    (d : ScatterDims ⟨2, ![N, D]⟩ ⟨2, ![E, 1]⟩ ⟨2, ![E, D]⟩) (hd : d = rowScatterDims N E D wf)
    (j : (⟨2, ![E, D]⟩ : Shape).Idx) (idx : IVec ⟨2, ![E, 1]⟩ w) (i : (⟨2, ![N, D]⟩ : Shape).Idx) :
    d.resultIdx? j idx = some i ↔
      (idx (ix2 (j 0) ⟨0, Nat.one_pos⟩)).toInt = ((i 0).val : Int) ∧ (j 1).val = (i 1).val := by
  subst hd; exact rowScatter_resultIdx wf j idx i

/-- `rowScatterAdd_apply` for any record equal to `rowScatterDims N E D wf`. -/
theorem rowScatterAdd_apply_of {N E D w : Nat} {wf : ScatterDims.WF ⟨2, ![N, D]⟩ ⟨2, ![E, 1]⟩ ⟨2, ![E, D]⟩ [1] [0] [0] 1}
    (d : ScatterDims ⟨2, ![N, D]⟩ ⟨2, ![E, 1]⟩ ⟨2, ![E, D]⟩) (hd : d = rowScatterDims N E D wf)
    (x : (⟨2, ![N, D]⟩ : Shape).Idx → EReal) (idx : IVec ⟨2, ![E, 1]⟩ w) (upd : (⟨2, ![E, D]⟩ : Shape).Idx → EReal)
    (i : (⟨2, ![N, D]⟩ : Shape).Idx) :
    Ideal.hostScatterAdd d x idx upd i
      = x i + ∑ e ∈ Finset.univ.filter (fun e : Fin E => (idx (ix2 e ⟨0, Nat.one_pos⟩)).toInt = ((i 0).val : Int)),
          upd (ix2 e (i 1)) := by
  subst hd; exact rowScatterAdd_apply wf idx x upd i

end Cert.LibRowOps

end
-- ==== Proof.LibVecScatter.lean ====
/-
  A VECTOR ACCUMULATED INTO BY INDEX, READ AT ONE ENTRY.

  The update `zeros(C).at[idx].add(upd)` adds each entry `upd[n]` of a vector of `N` updates into entry `idx[n]` of a vector
  of `C` entries. As a scatter with an add body it has operand `x : [C]`, scatter indices `idx : [N, 1]` (the index
  vector, of length one, lies on axis 1), updates `upd : [N]`, no window axis on the updates, and the operand's one axis
  both inserted and named by the one index component. This file reads it at an entry, generically in the sizes: entry
  `j` of the result is the operand's entry `j` plus the sum of the updates `upd[n]` over exactly those `n` whose index word
  `idx[n, 0]`, read as a SIGNED integer, equals `j`. The index is not clamped: a negative index, or one that is `C` or
  more, equals no `j < C` and so contributes to no entry.
-/
import Idealize.ShloMosaic.PureOps.Ideal
import Idealize.ShloMosaic.PureOps.Ideal.Laws
import Idealize.ShloMosaic.Lib.ValueIdx
import Idealize.ShloMosaic.Lib.ValueIdxRank1
import Mathlib.Data.EReal.Basic
import Mathlib.Algebra.BigOperators.Group.Finset.Basic
import proofs.«426053_j16621523436028_1_alg».proof.Proof.LibRowOps

noncomputable section

open scoped BigOperators

namespace Cert.LibVecScatter

open Idealize.ShloMosaic Idealize.ShloMosaic.ValueIdx

/-- The dimension numbers of `x.at[idx].add(upd)` for a vector `x : [C]`, scatter indices `idx : [N, 1]` and updates
    `upd : [N]`: the updates have no window axis, the operand's axis 0 is inserted and is the one axis the scatter
    index names, the index vector lies on axis 1 of the scatter indices. Stated over any witness `wf` of the
    well-formedness conditions, which are decided on a program's literal sizes. -/
def vecScatterDims (C N : Nat) (wf : ScatterDims.WF (⟨1, ![C]⟩ : Shape) ⟨2, ![N, 1]⟩ ⟨1, ![N]⟩ [] [0] [0] 1) :
    ScatterDims (⟨1, ![C]⟩ : Shape) ⟨2, ![N, 1]⟩ ⟨1, ![N]⟩ where
  updateWindowDims := []
  insertedWindowDims := [0]
  scatterDimsToOperandDims := [0]
  indexVectorDim := 1
  wf := wf

/-- A sum over a rank-1 index set is the sum over its coordinate range. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section
variable {C N w : Nat} (wf : ScatterDims.WF (⟨1, ![C]⟩ : Shape) ⟨2, ![N, 1]⟩ ⟨1, ![N]⟩ [] [0] [0] 1)
  (j : (⟨1, ![N]⟩ : Shape).Idx) (idx : IVec (⟨2, ![N, 1]⟩ : Shape) w)

/-- On the operand's one axis the start of update `n` is the scatter index `idx[n, 0]`, read signed: the axis is the
    first (and only) one the index vector names, so its component is read at position 0 of the index vector, and the
    other coordinate of the scatter-indices index is the update's own coordinate (the updates' one axis is a scatter
    axis). -/
theorem vecScatter_start0 :
    (vecScatterDims C N wf).start j idx 0 = (idx (ix2 (j 0) (0 : Fin 1))).toInt := by
  unfold ScatterDims.start
  rw [dif_pos (show (0 : Fin 1) ∈ (vecScatterDims C N wf).scatterDimsToOperandDims from List.mem_singleton.mpr rfl)]
  have hsi : (vecScatterDims C N wf).siIdx j ⟨List.idxOf (0 : Fin 1) (vecScatterDims C N wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the operand's one axis, an inserted axis, the window coordinate is `0`. -/
theorem vecScatter_window0 : (vecScatterDims C N wf).window j 0 = 0 := by
  unfold ScatterDims.window
  rw [dif_neg (show (0 : Fin 1) ∉ (vecScatterDims C N wf).sKept from
    fun h => (LibRowOps.mem_kept _ _).mp h (List.mem_singleton.mpr rfl))]

/-- WHERE AN UPDATE LANDS: update `n` lands at operand entry `i` exactly when the scatter index `idx[n, 0]`, read
    signed, is `i`. In particular a negative index, or one that is `C` or more, lands nowhere. -/
theorem vecScatter_resultIdx (i : (⟨1, ![C]⟩ : Shape).Idx) :
    (vecScatterDims C N wf).resultIdx? j idx = some i ↔
      (idx (ix2 (j 0) (0 : Fin 1))).toInt = ((i 0).val : Int) := by
  rw [LibRowOps.resultIdx?_eq_some_iff, Fin.forall_fin_one, vecScatter_start0, vecScatter_window0]
  constructor
  · intro h; simpa using h
  · intro h; simpa using h

end

/-- THE VECTOR SCATTER-ADD READ AT ENTRY `j`: the operand's entry plus the sum over all updates `n` of `upd[n]` where
    the scatter index `idx[n, 0]`, read signed, is `j`, and of `0` where it is not. (The sum over the update indices that land
    at `j` is the sum over all update indices of the update or zero; a rank-1 index is its one coordinate.) -/
theorem vecScatterAdd_apply {C N w : Nat}
    (wf : ScatterDims.WF (⟨1, ![C]⟩ : Shape) ⟨2, ![N, 1]⟩ ⟨1, ![N]⟩ [] [0] [0] 1)
    (x : (⟨1, ![C]⟩ : Shape).Idx → EReal) (idx : IVec (⟨2, ![N, 1]⟩ : Shape) w)
    (upd : (⟨1, ![N]⟩ : Shape).Idx → EReal) (j : Fin C) :
    Ideal.hostScatterAdd (vecScatterDims C N wf) x idx upd (ix1 j)
      = x (ix1 j) + ∑ n : Fin N, if (idx (ix2 n (0 : Fin 1))).toInt = (j.val : Int) then upd (ix1 n) else 0 := by
  unfold Ideal.hostScatterAdd
  congr 1
  rw [Finset.sum_filter, sum_idx1]
  refine Finset.sum_congr rfl fun n _ => ?_
  simp only [vecScatter_resultIdx]
  rfl

/-- The same for any record of dimension numbers that IS `vecScatterDims C N wf` (a program prints its dimension numbers
    as a record of its own, with literal sizes, which is this one by `rfl`). -/
theorem vecScatterAdd_apply_of {C N w : Nat}
    {wf : ScatterDims.WF (⟨1, ![C]⟩ : Shape) ⟨2, ![N, 1]⟩ ⟨1, ![N]⟩ [] [0] [0] 1}
    (d : ScatterDims (⟨1, ![C]⟩ : Shape) ⟨2, ![N, 1]⟩ ⟨1, ![N]⟩) (hd : d = vecScatterDims C N wf)
    (x : (⟨1, ![C]⟩ : Shape).Idx → EReal) (idx : IVec (⟨2, ![N, 1]⟩ : Shape) w)
    (upd : (⟨1, ![N]⟩ : Shape).Idx → EReal) (j : Fin C) :
    Ideal.hostScatterAdd d x idx upd (ix1 j)
      = x (ix1 j) + ∑ n : Fin N, if (idx (ix2 n (0 : Fin 1))).toInt = (j.val : Int) then upd (ix1 n) else 0 := by
  subst hd; exact vecScatterAdd_apply wf x idx upd j

end Cert.LibVecScatter

end
-- ==== Proof.KernelHost.lean ====
/-
  The kernel's host prefix, as functions of the labels.

  Before the region the program normalises the labels (a negative label is moved up by the number of classes),
  scatters a `1` per row onto a zero vector at the normalised label, adds `1`: the class counts `ccK`; from the
  counts it builds the matrix of mitigation factors `sOf` (entry `(i, j)` is `(n_j / n_i) ^ 0.8` where `n_i > n_j`
  and `1` elsewhere), which the region receives transposed. Here the counts are read at a class: for labels inside
  the class range the normalisation is the identity, an update lands on class `j` exactly when the row's label is
  `j`, and the count is `(0 + ∑ n, hot (label n) j) + 1`, the column sum of the one-hot matrix plus one.
-/
import proofs.«426053_j16621523436028_1_alg».proof.Proof.Gen.KernelIdeal
import proofs.«426053_j16621523436028_1_alg».proof.Proof.Spec
import proofs.«426053_j16621523436028_1_alg».proof.Proof.LibVecScatter
import Idealize.ShloMosaic.Lib.Pipeline.Value
import Idealize.ShloMosaic.Lib.ValueIdx
import Idealize.ShloMosaic.PureOps.Ideal.Laws

noncomputable section

namespace Cert.Seesaw.KHost

open Idealize.ShloMosaic Idealize.ShloMosaic.ValueIdx Cert.KernelIdeal Cert.Seesaw
open Cert.KernelIdeal.Facts₀

/-- The word `1.0` denotes the extended real `1`. -/
theorem ofBits_one : Ideal.ofBits .f32 0x3F800000#32 = 1 := by
  simp [Ideal.ofBits, Ideal.ieee, -EReal.coe_mul]; norm_num

/-- The labels with the negative ones moved up by the number of classes. -/
def normIdx (lab : IVec S8192 32) : IVec S8192 32 :=
  select (cmpi .slt lab (broadcastInDim S8192 ![] bcast_S_S8192 (constantI S_ 32 0#32)))
    (addi lab (broadcastInDim S8192 ![] bcast_S_S8192 (constantI S_ 32 2048#32))) lab

/-- The class counts: a `1` per row accumulated at its normalised label, plus `1`. -/
def ccK (lab : IVec S8192 32) : FVec Ideal S2048 .f32 :=
  addf (Host.scatterAdd scatter_S2048_S8192x1_S8192_n_0_0_1
      (broadcastInDim S2048 ![] bcast_S_S2048 (constant S_ .f32 0x00000000#32))
      (broadcastInDim S8192x1 ![0] bcast_S8192_S8192x1_0 (normIdx lab))
      (broadcastInDim S8192 ![] bcast_S_S8192 (constant S_ .f32 0x3F800000#32)))
    (broadcastInDim S2048 ![] bcast_S_S2048 (constant S_ .f32 0x3F800000#32))

/-- The matrix of mitigation factors from the class counts. -/
def sOf (cc : FVec Ideal S2048 .f32) : FVec Ideal S2048x2048 .f32 :=
  select
    (cmpf .ogt
      (broadcastInDim S2048x2048 ![0, 1] bcast_S2048x1_S2048x2048_0_1 (broadcastInDim S2048x1 ![0] bcast_S2048_S2048x1_0 cc))
      (broadcastInDim S2048x2048 ![0, 1] bcast_S1x2048_S2048x2048_0_1 (broadcastInDim S1x2048 ![1] bcast_S2048_S1x2048_1 cc)))
    (Host.powf
      (Host.divf
        (broadcastInDim S2048x2048 ![0, 1] bcast_S1x2048_S2048x2048_0_1 (broadcastInDim S1x2048 ![1] bcast_S2048_S1x2048_1 cc))
        (broadcastInDim S2048x2048 ![0, 1] bcast_S2048x1_S2048x2048_0_1 (broadcastInDim S2048x1 ![0] bcast_S2048_S2048x1_0 cc)))
      (broadcastInDim S2048x2048 ![] bcast_S_S2048x2048 (constant S_ .f32 0x3F4CCCCD#32)))
    (broadcastInDim S2048x2048 ![] bcast_S_S2048x2048 (constant S_ .f32 0x3F800000#32))

/-- The signed value of a class number's word is the class number. -/
theorem toInt_ofNat_class (y : Fin 2048) : (BitVec.ofNat 32 y.val).toInt = (y.val : Int) := by
  have hyl := y.isLt
  have h32 : (2 : Nat) ^ 32 = 4294967296 := by norm_num
  have hn : (BitVec.ofNat 32 y.val).toNat = y.val := by
    rw [BitVec.toNat_ofNat]; exact Nat.mod_eq_of_lt (by omega)
  rw [BitVec.toInt_eq_toNat_cond, hn, if_pos (by omega)]

/-- A label inside the class range is not negative, so its normalisation is itself. -/
theorem normIdx_apply (lab : IVec S8192 32) (n : Fin 8192) (y : Fin 2048) (hy : lab (ix1 n) = BitVec.ofNat 32 y.val) :
    normIdx lab (ix1 n) = BitVec.ofNat 32 y.val := by
  unfold normIdx
  show Scalar.select (IntOp.cmpi .slt (lab (ix1 n)) 0#32) (lab (ix1 n) + 2048#32) (lab (ix1 n)) = _
  rw [hy]
  have hlt : IntOp.cmpi .slt (BitVec.ofNat 32 y.val) 0#32 = 0#1 := by
    show BitVec.ofBool ((BitVec.ofNat 32 y.val).slt 0#32) = 0#1
    have : (BitVec.ofNat 32 y.val).slt 0#32 = false := by
      rw [BitVec.slt, toInt_ofNat_class]
      simp
    rw [this]; rfl
  rw [hlt]
  exact select_zero _ _

/-- THE CLASS COUNTS AT A CLASS, for labels inside the class range: the column sum of the one-hot matrix, plus one. -/
theorem ccK_apply (lab : IVec S8192 32) (hlab : ∀ n : Fin 8192, ∃ y : Fin 2048, lab (ix1 n) = BitVec.ofNat 32 y.val) (j : Fin 2048) :
    ccK lab (ix1 j)
      = (Ideal.ofBits .f32 0x00000000#32 + ∑ n : Fin 8192, hot (lab (ix1 n)) j) + Ideal.ofBits .f32 0x3F800000#32 := by
  unfold ccK
  show Ideal.hostScatterAdd scatter_S2048_S8192x1_S8192_n_0_0_1
      (broadcastInDim S2048 ![] bcast_S_S2048 (constant (F := Ideal) S_ .f32 0x00000000#32))
      (broadcastInDim S8192x1 ![0] bcast_S8192_S8192x1_0 (normIdx lab))
      (broadcastInDim S8192 ![] bcast_S_S8192 (constant (F := Ideal) S_ .f32 0x3F800000#32)) (ix1 j)
    + Ideal.ofBits .f32 0x3F800000#32 = _
  rw [Cert.LibVecScatter.vecScatterAdd_apply_of scatter_S2048_S8192x1_S8192_n_0_0_1 rfl]
  refine congrArg (· + Ideal.ofBits .f32 0x3F800000#32) ?_
  refine congrArg (Ideal.ofBits .f32 0x00000000#32 + ·) (Finset.sum_congr rfl fun n _ => ?_)
  obtain ⟨y, hy⟩ := hlab n
  have hI : broadcastInDim S8192x1 ![0] bcast_S8192_S8192x1_0 (normIdx lab) (ix2 n (0 : Fin 1)) = BitVec.ofNat 32 y.val := by
    rw [broadcastInDim_apply _ bcast_S8192_S8192x1_0 (normIdx lab) (ix2 n (0 : Fin 1)) (ix1 n) (fun a => match a with
      | ⟨0, _⟩ => by show n.val = if (8192 : Nat) = 1 then 0 else n.val; rw [if_neg (by decide)])]
    exact normIdx_apply lab n y hy
  rw [hI, toInt_ofNat_class, hy, hot_ofNat]
  show (if ((y.val : Int) = (j.val : Int)) then Ideal.ofBits .f32 0x3F800000#32 else 0) = _
  by_cases h : y = j
  · subst h; rw [if_pos rfl, if_pos rfl, ofBits_one]
  · rw [if_neg h, if_neg]
    intro he; exact h (Fin.ext (by exact_mod_cast he))

end Cert.Seesaw.KHost

end
-- ==== Proof.KernelEntry.lean ====
/-
  What the region finds in the two arrays the host prefix writes.

  The weight window's array is the matrix of mitigation factors of the class counts, transposed (and changed to
  bf16, which is the identity on extended reals); the labels window's array is the labels vector cast to a column.
  Both are read off the host operations before the region, as functions of the labels argument.
-/
import proofs.«426053_j16621523436028_1_alg».proof.Proof.Gen.KernelIdeal.Frame
import proofs.«426053_j16621523436028_1_alg».proof.Proof.KernelHost
import Idealize.ShloMosaic.Lib.StableHlo.Run

set_option maxRecDepth 16384

noncomputable section

namespace Cert.Seesaw.KEntry

open Idealize.ShloMosaic Idealize.ShloMosaic.ValueIdx Idealize.ShloMosaic.TcCoe Idealize.SL.Sem Idealize.ShloMosaic.StableHlo
open Cert.KernelIdeal Cert.KernelIdeal.Gen Cert.Seesaw

variable (m : (ℓ : Loc nD τ sig) → Buf (Elt Ideal) ℓ)

set_option maxHeartbeats 4000000 in
/-- The weight window's array at region entry: the transposed matrix of mitigation factors of the class counts. -/
theorem V_sT (c : Dev nD) : (V m c main_v25 : S2048x2048.Idx → EReal)
    = truncf .bf16 (transpose S2048x2048 [1, 0] (KHost.sOf (KHost.ccK (m ((c : Thread nD τ).loc main_arg1))))
        Facts₀.transposes_S2048x2048_S2048x2048_1_0) Facts₀.bitsLt_bf16_f32 := by
  dsimp only [V, V0]
  simp only [hostOps0, hostOps0_1, hostOps0_2, List.flatten_cons, List.flatten_nil, List.append_nil, List.cons_append, List.nil_append]
  after_results
  unfold KHost.sOf KHost.ccK KHost.normIdx
  simp only [TRef.ofBuf, TRef.toBuf, cast_eq, id_eq]

/-- The labels window's array at region entry: the labels vector as a column. -/
theorem V_lab (c : Dev nD) : (V m c main_v26 : S8192x1.Idx → BitVec 32)
    = shapeCast S8192x1 (m ((c : Thread nD τ).loc main_arg1)) Facts₀.shapeCasts_S8192_S8192x1 := by
  dsimp only [V, V0]
  simp only [hostOps0, hostOps0_1, hostOps0_2, List.flatten_cons, List.flatten_nil, List.append_nil, List.cons_append, List.nil_append]
  after_results
  rfl

end Cert.Seesaw.KEntry

end
-- ==== Proof.KernelRun.lean ====
/-
  The kernel's run, read as a value.

  Grid point `t` stages rows `256 t … 256 t + 255` of the logits and of the labels column and the whole transposed
  weight matrix, and writes back the 256 row losses of those rows. So what point `t` writes back is block `t` of ONE
  column `rowsK`, whose entry `n` is the loss of row `n` (the sum negated at the end) with weights
  `w j k = s[j, k]`, the matrix of mitigation factors of the class counts: the region finds `s` transposed, and the
  body's product reads the transpose at `(k, j)`. The 32 blocks tile the column, so the output array ends at
  `rowsK`; the lines after the region cast the column to a vector, sum it and divide by the number of rows.
-/
import proofs.«426053_j16621523436028_1_alg».proof.Proof.Gen.KernelIdeal.Frame
import proofs.«426053_j16621523436028_1_alg».proof.Proof.KernelPayload
import proofs.«426053_j16621523436028_1_alg».proof.Proof.KernelHost
import proofs.«426053_j16621523436028_1_alg».proof.Proof.KernelEntry
import Idealize.ShloMosaic.Lib.StableHlo.Run
import Idealize.ShloMosaic.Lib.ValueLayout
import Idealize.ShloMosaic.Lib.Pipeline.Value

set_option maxRecDepth 16384

noncomputable section

namespace Cert.Seesaw.KRun

open Idealize.ShloMosaic Idealize.ShloMosaic.ValueIdx Idealize.ShloMosaic.TcCoe Idealize.SL.Sem Idealize.ShloMosaic.StableHlo
open Cert.KernelIdeal Cert.KernelIdeal.Gen Cert.Seesaw

variable (m : (ℓ : Loc nD τ sig) → Buf (Elt Ideal) ℓ) (ρ : Dev nD → PrngReg)

/-- The labels as launched. -/
abbrev lab (c : Dev nD) : IVec S8192 32 := m ((c : Thread nD τ).loc main_arg1)
/-- The logits as launched. -/
abbrev lgt (c : Dev nD) : FVec Ideal S8192x2048 .f32 := m ((c : Thread nD τ).loc main_arg0)

/-- The loss of row `n`: the sum negated at the end, weights the mitigation factors of the class counts. -/
def rowLoss (c : Dev nD) (n : Fin 8192) : EReal :=
  lossNegSum (fun k => lgt m c (ix2 n k)) (lab m c (ix1 n)) (fun j k => KHost.sOf (KHost.ccK (lab m c)) (ix2 j k))

/-- The column of the row losses. -/
def rowsK (c : Dev nD) : S8192x1.Idx → EReal := fun i => rowLoss m c ⟨(i 0).val, (i 0).isLt⟩

theorem rowsK_apply (c : Dev nD) (i : S8192x1.Idx) (n : Fin 8192) (h : (i 0).val = n.val) : rowsK m c i = rowLoss m c n := by
  unfold rowsK
  exact congrArg (rowLoss m c) (Fin.ext h)

theorem hz : (![0, 0] : Fin 2 → Nat) = fun _ => 0 := funext fun a => by fin_cases a <;> rfl

/-- The printed index maps, decided over the grid: the logits, the labels and the output move down one block of rows
    per point; the weight matrix stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The array row under row `p` of point `t`'s block. -/
def rowAt (t : Fin cfg0.N) (p : Fin 256) : Fin 8192 :=
  ⟨t.val * 256 + p.val, by have := t.isLt; have h : cfg0.N = 32 := N_0; have := p.isLt; omega⟩

/-- The input blocks at a point, at their literal types. -/
abbrev blk0 (c : Dev nD) (t : Fin cfg0.N) : Vec Ideal S256x2048 .f32 := iblk m c 0 t
abbrev blk1 (c : Dev nD) (t : Fin cfg0.N) : Vec Ideal S256x1 .i32 := iblk m c 1 t
abbrev blk2 (c : Dev nD) (t : Fin cfg0.N) : Vec Ideal S2048x2048 .bf16 := iblk m c 2 t

/-- Row `p` of point `t`'s logits block is row `256 t + p` of the logits. -/
theorem blk_logits (c : Dev nD) (t : Fin cfg0.N) (p : Fin 256) (k : Fin 2048) :
    blk0 m c t (ix2 p k) = lgt m c (ix2 (rowAt t p) k) := by
  obtain ⟨e0, e1, -⟩ := idx_facts t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 256 + 1 * p.val = t.val * 256 + p.val; omega
  | ⟨1, _⟩ => show win0_0.index t (1 : Fin 2) * 2048 + 1 * k.val = k.val; omega

/-- Row `p` of point `t`'s labels block is label `256 t + p`. -/
theorem blk_label (c : Dev nD) (t : Fin cfg0.N) (p : Fin 256) :
    blk1 m c t (ix2 p Cert.LibBlockOps.u1) = lab m c (ix1 (rowAt t p)) := by
  obtain ⟨-, -, e2, e3, -⟩ := idx_facts t
  show V m c main_v26 (((cfg0.win 1).blk t).view.emb (ix2 p Cert.LibBlockOps.u1)) = _
  have he : (((cfg0.win 1).blk t).view.emb (ix2 p Cert.LibBlockOps.u1) : S8192x1.Idx) = (ix2 (rowAt t p) (0 : Fin 1) : S8192x1.Idx) :=
    funext fun a => Fin.ext (by
      match a with
      | ⟨0, _⟩ => show win0_1.index t (0 : Fin 2) * 256 + 1 * p.val = t.val * 256 + p.val; omega
      | ⟨1, _⟩ => show win0_1.index t (1 : Fin 2) * 1 + 1 * 0 = 0; omega)
  rw [he, KEntry.V_lab]
  exact Cert.LibRowReduce.column_of_vector_apply _ _ (rowAt t p) (0 : Fin 1)

/-- The weight block is the whole transposed matrix: at `(k, j)` it is the mitigation factor `s[j, k]`. -/
theorem blk_weight (c : Dev nD) (t : Fin cfg0.N) (k j : Fin 2048) :
    blk2 m c t (ix2 k j) = KHost.sOf (KHost.ccK (lab m c)) (ix2 j k) := by
  obtain ⟨-, -, -, -, e4, e5, -⟩ := idx_facts t
  show V m c main_v25 (((cfg0.win 2).blk t).view.emb (ix2 k j)) = _
  have he : (((cfg0.win 2).blk t).view.emb (ix2 k j) : S2048x2048.Idx) = (ix2 k j : S2048x2048.Idx) :=
    funext fun a => Fin.ext (by
      match a with
      | ⟨0, _⟩ => show win0_2.index t (0 : Fin 2) * 2048 + 1 * k.val = k.val; omega
      | ⟨1, _⟩ => show win0_2.index t (1 : Fin 2) * 2048 + 1 * j.val = j.val; omega)
  rw [he, KEntry.V_sT, truncf_apply]
  exact transpose_ix2_apply _ _ k j

/-- WHAT POINT `t` WRITES BACK is block `t` of the column of row losses. -/
theorem flushed_eq (c : Dev nD) (t : Fin cfg0.N) :
    (dats m 0 c).flushed 3 t = ((cfg0.win 3).blk t).view.read (Elt Ideal) (rowsK m c) := by
  show (cfg0.win 3).cut (grid0.coords t) ((dats m 0 c).after 3 t) = _
  rw [after0_3]
  unfold out0_3
  rw [View.canon_unit_zero hz]
  simp only [View.ld_unit_zero (S := S256x2048) hz, View.ld_unit_zero (S := S256x1) hz, View.ld_unit_zero (S := S2048x2048) hz]
  funext y
  obtain ⟨p, q, rfl⟩ : ∃ (p : Fin 256) (q : Fin 1), y = ix2 p q := ⟨y 0, y 1, eq_ix2 y⟩
  refine (Payload.pay_row (blk0 m c t) (blk1 m c t) (blk2 m c t) p q).trans ?_
  obtain ⟨-, -, -, -, -, -, e6, e7⟩ := idx_facts t
  show _ = rowsK m c (((cfg0.win 3).blk t).view.emb (ix2 p q))
  rw [rowsK_apply m c _ (rowAt t p) (by show win0_3.index t (0 : Fin 2) * 256 + 1 * p.val = t.val * 256 + p.val; omega)]
  unfold rowLoss
  rw [show (fun k => blk0 m c t (ix2 p k)) = fun k => lgt m c (ix2 (rowAt t p) k) from funext fun k => blk_logits m c t p k,
    blk_label m c t p,
    show (fun j k => blk2 m c t (ix2 k j)) = fun j k => KHost.sOf (KHost.ccK (lab m c)) (ix2 j k) from
      funext fun j => funext fun k => blk_weight m c t k j]

/-- An index of the output column is in point `t`'s block iff each coordinate is in the block's range. -/
theorem mem_blk (t : Fin cfg0.N) (i : S8192x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v27).slice (win0_3.rect t)).set ↔ _
  rw [View.set_slice_whole, Rect.mem_set_unit]
  exact Iff.rfl

/-- Every block of rows is some point's. -/
theorem idx_onto : ∀ q0 : Fin 32, ∃ t : Fin cfg0.N, win0_3.index t = ![q0.val, 0] :=
  (by decide +kernel : ∀ q0 : Fin 32, ∃ t : Fin grid0.N, win0_3.index t = ![q0.val, 0])

/-- The 32 blocks cover the column: row `n` is in the block of point `n / 256`. -/
theorem cover (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  obtain ⟨t, ht⟩ := idx_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1 ≤ (i 1).val ∧ (i 1).val < win0_3.index t (1 : Fin 2) * 1 + 1; omega

/-- THE OUTPUT ARRAY after the region: the column of row losses. -/
theorem final (c : Dev nD) : (dats m 0 c).arrAt 3 cfg0.N = rowsK m c :=
  (dats m 0 c).arrAt_eq_of_cover 3 (rowsK m c) (fun t _ => flushed_eq m c t) cover

/-- The lines after the region, as one function of the column: cast to a vector, summed from `0`, divided by `8192`. -/
def meanK (rows : S8192x1.Idx → EReal) : S_.Idx → EReal :=
  Host.divf (Host.reduceAdd (F := Ideal) (shapeCast S8192 rows Facts₀.shapeCasts_S8192x1_S8192) (constant S_ .f32 0x00000000#32)
    Facts₀.reducesTo_S8192_S_d0 Facts₀.h_S_) (constant S_ .f32 0x46000000#32)

/-- The result buffer after the lines that follow the region. -/
theorem tail_eq (c : Dev nD) : Pipeline.afterTail₀ cfgs (dats m) 0 (V0 m) [hostOps1] c main_v30 = meanK (rowsK m c) := by
  unfold Pipeline.afterTail₀
  show StableHlo.after hostOps1 _ (Proc.devRef .tc main_v30) = _
  after_results
  have hW : Pipeline.withArrays (cfgs 0).spec c (V0 m c) (fun w => (dats m 0 c).arrAt w (cfgs 0).N) (Proc.devRef .tc main_v27)
      = rowsK m c := (Pipeline.withArrays_arr spec0 launch0.win.arr_inj c _ _ 3).trans (final m c)
  rw [hW]
  rfl

/-- THE KERNEL'S RUN: every weakly fair execution terminates with the result buffer at the mean of the row losses and the
    arguments unchanged. -/
theorem run : θ_run defs (onTc (τ := τ) (main (F := Ideal))) ⟨m, fun _ => 0, ρ⟩ fun r => ∀ c : Dev nD,
      r.2.mem ((c.tc : Thread nD τ).loc main_v30) = meanK (rowsK m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v30 (Pipeline.mem_restRefs_of main_v30 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.Seesaw.KRun

end
-- ==== Proof.RefSide.lean ====
/-
  The reference program's stages, read row by row as the mathematics of the seesaw loss.

  The reference computes, from the labels, the one-hot matrix, its column sums plus one (the class counts), and from
  the counts a matrix of mitigation factors; from the logits, per row, the shifted exponentials
  e = exp (x - max x), the denominators  ((1 - onehot) * e) · s-row + e,  the logarithms
  log (e / (denom + ε) + ε)  and the row's loss  0 + ∑ j, (-onehot j) * log-term j.
  Each lemma below reads one of these stages at an index and identifies it with the corresponding function of the
  row of logits, the row's label word and the matrix of factors (kept as it is: only its entry (j, k) is read).
-/
import proofs.«426053_j16621523436028_1_alg».proof.Proof.RefReadP
import proofs.«426053_j16621523436028_1_alg».proof.Proof.Spec
import proofs.«426053_j16621523436028_1_alg».proof.Proof.LibRowReduce
import Idealize.ShloMosaic.Lib.ValueIdx
import Idealize.ShloMosaic.Lib.Pipeline.Value
import Idealize.ShloMosaic.PureOps.Ideal.Laws
import Idealize.ShloMosaic.PureOps.Reduce

noncomputable section

namespace Cert.Seesaw.Ref

open Idealize.ShloMosaic Idealize.ShloMosaic.ValueIdx Cert.ReferenceIdeal Cert.ReferenceIdeal.ReadP Cert.Seesaw

/-- The one-hot matrix at (n, j): the indicator that row n's label is class j. The label is broadcast along the
    row, the class numbers 0 .. 2047 along the column, and the two are compared for equality. -/
theorem onehot_apply (lab : (⟨S8192, .i32⟩ : BufTy).Contents (Elt Ideal)) (n : Fin 8192) (j : Fin 2048) :
    val_main_v0 (F := Ideal) lab (ix2 n j) = hot (lab (ix1 n)) j := by
  rw [val_main_v0_apply, val_main_call0_v4_apply, val_main_call0_v2_apply, val_main_call0_v0_apply,
    val_main_call0_v3_apply, val_main_call0_v1_apply]
  have e1 : idx_main_call0_v0 (idx_main_call0_v2 (ix2 n j)) = ix1 n :=
    funext fun a => Fin.ext (by match a with | ⟨0, _⟩ => rfl)
  rw [e1]
  exact hot_unsigned (lab (ix1 n)) j

/-- The class counts: column sums of the one-hot matrix, plus one. -/
theorem counts_apply (lab : (⟨S8192, .i32⟩ : BufTy).Contents (Elt Ideal)) (j : Fin 2048) :
    val_main_v3 (F := Ideal) lab (ix1 j)
      = (Ideal.ofBits .f32 0x00000000#32 + ∑ n : Fin 8192, hot (lab (ix1 n)) j) + Ideal.ofBits .f32 0x3F800000#32 := by
  rw [val_main_v3_apply, Ideal.addf_def, val_main_v1_apply, val_main_v2_apply, val_main_cst_0_apply,
    val_main_cst_apply, Ideal.ofBits_def, Ideal.ofBits_def]
  have hsum : (∑ k : Fin 8192, val_main_v0 (F := Ideal) lab (idx_main_v1 (ix1 j) k))
      = ∑ n : Fin 8192, hot (lab (ix1 n)) j :=
    Finset.sum_congr rfl fun n _ => by
      have e : idx_main_v1 (ix1 j) n = ix2 n j :=
        funext fun a => Fin.ext (by match a with | ⟨0, _⟩ => rfl | ⟨1, _⟩ => rfl)
      rw [e, onehot_apply]
  rw [hsum]

/-- The row maximum: the fold of max from -∞ over the row's entries. -/
theorem rowmax_apply (x : (⟨S8192x2048, .f32⟩ : BufTy).Contents (Elt Ideal)) (n : Fin 8192) :
    val_main_v17 (F := Ideal) x (ix1 n) = top (fun k => x (ix2 n k)) := by
  unfold val_main_v17
  have h : S8192x2048.Reduces [1] S8192 := by decide
  refine (Host.reduce_eq_fold_single _ x _ Gen.reducesTo_S8192x2048_S8192_d1 h Gen.h_S_ (ix1 n)).trans ?_
  unfold top
  rw [show x ∘ h.lift (ix1 n) = fun k => x (ix2 n k) from
    funext fun k => congrArg x (Cert.LibRowReduce.lift_row h n k)]
  rfl

/-- The shifted exponential at (n, j). -/
theorem exp_apply (x : (⟨S8192x2048, .f32⟩ : BufTy).Contents (Elt Ideal)) (n : Fin 8192) (j : Fin 2048) :
    val_main_v21 (F := Ideal) x (ix2 n j) = ex (fun k => x (ix2 n k)) j := by
  rw [val_main_v21_apply, val_main_v20_apply, val_main_v19_apply, val_main_v18_apply]
  have e1 : idx_main_v18 (idx_main_v19 (ix2 n j)) = ix1 n :=
    funext fun a => Fin.ext (by match a with | ⟨0, _⟩ => rfl)
  rw [e1, rowmax_apply]
  rfl

/-- The exponential with the label's class masked out, at (n, k). -/
theorem masked_apply (x : (⟨S8192x2048, .f32⟩ : BufTy).Contents (Elt Ideal))
    (lab : (⟨S8192, .i32⟩ : BufTy).Contents (Elt Ideal)) (n : Fin 8192) (k : Fin 2048) :
    val_main_v24 (F := Ideal) x lab (ix2 n k) = masked (fun k => x (ix2 n k)) (lab (ix1 n)) k := by
  rw [val_main_v24_apply, val_main_v23_apply, val_main_v22_apply, val_main_cst_4_apply, onehot_apply, exp_apply]
  rfl

/-- The seesaw denominator at (n, j): the contraction of the masked exponentials of row n with row j of the matrix
    of factors, plus the row's own exponential at j. -/
theorem denom_apply (x : (⟨S8192x2048, .f32⟩ : BufTy).Contents (Elt Ideal))
    (lab : (⟨S8192, .i32⟩ : BufTy).Contents (Elt Ideal)) (n : Fin 8192) (j : Fin 2048) :
    val_main_v26 (F := Ideal) x lab (ix2 n j)
      = denom (fun k => x (ix2 n k)) (lab (ix1 n)) (fun j k => val_main_v16 (F := Ideal) lab (ix2 j k)) j := by
  rw [val_main_v26_apply, Ideal.addf_def, val_main_v25_apply, exp_apply]
  unfold denom
  refine congrArg (· + _) (Finset.sum_congr rfl fun k _ => ?_)
  have el : lidx_main_v25 (ix2 n j) k = ix2 n k :=
    funext fun a => Fin.ext (by match a with | ⟨0, _⟩ => rfl | ⟨1, _⟩ => rfl)
  have er : ridx_main_v25 (ix2 n j) k = ix2 j k :=
    funext fun a => Fin.ext (by match a with | ⟨0, _⟩ => rfl | ⟨1, _⟩ => rfl)
  rw [el, er, masked_apply]

/-- The logarithm of the mitigated probability at (n, j). -/
theorem logp_apply (x : (⟨S8192x2048, .f32⟩ : BufTy).Contents (Elt Ideal))
    (lab : (⟨S8192, .i32⟩ : BufTy).Contents (Elt Ideal)) (n : Fin 8192) (j : Fin 2048) :
    val_main_v33 (F := Ideal) x lab (ix2 n j)
      = logp (fun k => x (ix2 n k)) (lab (ix1 n)) (fun j k => val_main_v16 (F := Ideal) lab (ix2 j k)) j := by
  rw [val_main_v33_apply, val_main_v32_apply, val_main_v29_apply, val_main_v28_apply, val_main_v31_apply,
    val_main_v27_apply, val_main_cst_6_apply, val_main_cst_5_apply, denom_apply, exp_apply]
  rfl

/-- The row losses: from 0, the sum over the classes of the negated indicator times the logarithm. -/
theorem rows_apply (x : (⟨S8192x2048, .f32⟩ : BufTy).Contents (Elt Ideal))
    (lab : (⟨S8192, .i32⟩ : BufTy).Contents (Elt Ideal)) (n : Fin 8192) :
    val_main_v35 (F := Ideal) x lab (ix1 n)
      = lossSumNeg (fun k => x (ix2 n k)) (lab (ix1 n)) (fun j k => val_main_v16 (F := Ideal) lab (ix2 j k)) := by
  rw [val_main_v35_apply, val_main_cst_7_apply]
  unfold lossSumNeg
  refine congrArg (_ + ·) (Finset.sum_congr rfl fun j _ => ?_)
  have e : idx_main_v35 (ix1 n) j = ix2 n j :=
    funext fun a => Fin.ext (by match a with | ⟨0, _⟩ => rfl | ⟨1, _⟩ => rfl)
  rw [e, val_main_v34_apply, val_main_v30_apply, onehot_apply, logp_apply]
  rfl

end Cert.Seesaw.Ref

end
-- ==== Proof.Bridge.lean ====
/-
  The two programs compute one number.

  For labels inside the class range:
    * the kernel's class counts (a `1` scattered per row at its label, plus one) are the reference's (the column sums of
      the one-hot matrix, plus one), class by class;
    * the matrix of mitigation factors is the same chain of operations of the class counts in both programs;
    * row by row, the kernel's loss (the sum negated at the end, the weights read through the transpose) is the
      reference's (every term negated first): the law of the specification, both spellings being minus the one
      logarithm the one-hot row keeps;
    * both programs then sum the row losses from `0` and divide by the number of rows.
-/
import proofs.«426053_j16621523436028_1_alg».proof.Proof.KernelRun
import proofs.«426053_j16621523436028_1_alg».proof.Proof.RefSide
import Idealize.ShloMosaic.Lib.Pipeline.Value
import Idealize.ShloMosaic.Lib.ValueIdx

set_option maxRecDepth 16384

noncomputable section

namespace Cert.Seesaw.Bridge

open Idealize.ShloMosaic Idealize.ShloMosaic.ValueIdx Idealize.ShloMosaic.TcCoe Idealize.SL.Sem
open Cert.Seesaw Cert.ReferenceIdeal.ReadP

/-- A column [a, 1] cast to a vector [a] reads, at i, the column at (i, 0). -/
theorem vector_of_column_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The class counts agree, for labels inside the class range. -/
theorem counts_eq (lab : IVec Cert.KernelIdeal.S8192 32)
    (hlab : ∀ n : Fin 8192, ∃ y : Fin 2048, lab (ix1 n) = BitVec.ofNat 32 y.val) :
    KHost.ccK lab = val_main_v3 (F := Ideal) lab := by
  funext i
  obtain ⟨j, rfl⟩ : ∃ j : Fin 2048, i = ix1 j := ⟨i 0, eq_ix1 i⟩
  rw [KHost.ccK_apply lab hlab j, Ref.counts_apply lab j]

/-- The matrix of mitigation factors is one chain of operations of the class counts in both programs. -/
theorem weights_eq (lab : IVec Cert.KernelIdeal.S8192 32) :
    KHost.sOf (val_main_v3 (F := Ideal) lab) = val_main_v16 (F := Ideal) lab := rfl

variable (m : (ℓ : Loc Cert.KernelIdeal.nD Cert.KernelIdeal.τ Cert.KernelIdeal.sig) → Buf (Elt Ideal) ℓ)

/-- The column of the kernel's row losses, cast to a vector, is the reference's vector of row losses. -/
theorem rows_eq (c : Dev Cert.KernelIdeal.nD)
    (hlab : ∀ n : Fin 8192, ∃ y : Fin 2048, KRun.lab m c (ix1 n) = BitVec.ofNat 32 y.val) :
    shapeCast Cert.KernelIdeal.S8192 (KRun.rowsK m c) Cert.KernelIdeal.Facts₀.shapeCasts_S8192x1_S8192
      = val_main_v35 (F := Ideal) (KRun.lgt m c) (KRun.lab m c) := by
  funext i
  obtain ⟨n, rfl⟩ : ∃ n : Fin 8192, i = ix1 n := ⟨i 0, eq_ix1 i⟩
  rw [vector_of_column_apply, KRun.rowsK_apply m c _ n rfl, Ref.rows_apply]
  unfold KRun.rowLoss
  obtain ⟨y, hy⟩ := hlab n
  rw [counts_eq _ hlab, weights_eq]
  exact lossNegSum_eq_lossSumNeg _ _ _ y hy

/-- The two results agree. -/
theorem mean_eq (c : Dev Cert.KernelIdeal.nD)
    (hlab : ∀ n : Fin 8192, ∃ y : Fin 2048, KRun.lab m c (ix1 n) = BitVec.ofNat 32 y.val) :
    KRun.meanK (KRun.rowsK m c) = val_main_v37 (F := Ideal) (KRun.lgt m c) (KRun.lab m c) := by
  unfold KRun.meanK
  rw [rows_eq m c hlab]
  rfl

end Cert.Seesaw.Bridge

end
-- ==== Proof.lean ====
/-
  The seesaw loss with logits: the kernel against its jnp reference, over the extended reals.

  Both programs take logits [8192, 2048] and integer labels [8192]. From the labels they count the classes
  (n_j = the number of rows labelled j, plus one) and build the matrix of mitigation factors
  s[i, j] = (n_j / n_i) ^ 0.8 where n_i > n_j and 1 elsewhere. Row by row, with e_j = exp (x_j - max x) and t the
  one-hot row of the label, the loss is minus the sum over j of t_j log (e_j / (sum_k (1 - t_k) e_k s[j, k] + e_j + ε) + ε),
  and the result is the mean of the row losses.

  The kernel counts the classes by a scatter of ones at the labels, after moving a negative label up by the number of
  classes; the reference sums the columns of the one-hot matrix, in which a negative label has no entry. The two counts
  agree exactly on the labels inside the class range [0, 2048), which the precondition states (beside the finiteness of
  the logits, which the proof never opens). On that domain the counts, hence the factors, agree; the kernel's product
  reads the transposed factors where the reference contracts the second axis of both operands: one sum; the kernel
  negates the row's sum at the end where the reference negates every term first: both are minus the one logarithm the
  one-hot row keeps (Proof/Spec.lean), so no finiteness of the logarithms is needed; and both programs end with the same
  sum and quotient.

  The frames are the generated ones; the reference's frame is its run with the result dropped.
-/
import proofs.«426053_j16621523436028_1_alg».proof.Defs
import proofs.«426053_j16621523436028_1_alg».proof.Proof.Gen.Kernel
import proofs.«426053_j16621523436028_1_alg».proof.Proof.Gen.Kernel.Skeleton
import proofs.«426053_j16621523436028_1_alg».proof.Proof.Gen.Kernel.Launch
import proofs.«426053_j16621523436028_1_alg».proof.Proof.Gen.Kernel.Points
import proofs.«426053_j16621523436028_1_alg».proof.Proof.Gen.Kernel.Frame
import proofs.«426053_j16621523436028_1_alg».proof.Proof.Gen.KernelIdeal
import proofs.«426053_j16621523436028_1_alg».proof.Proof.Gen.KernelIdeal.Skeleton
import proofs.«426053_j16621523436028_1_alg».proof.Proof.Gen.KernelIdeal.Launch
import proofs.«426053_j16621523436028_1_alg».proof.Proof.Gen.KernelIdeal.Points
import proofs.«426053_j16621523436028_1_alg».proof.Proof.Gen.KernelIdeal.Frame
import proofs.«426053_j16621523436028_1_alg».proof.Proof.Gen.ReferenceIdeal
import proofs.«426053_j16621523436028_1_alg».proof.Proof.Gen.Pre_finite_inputs
import proofs.«426053_j16621523436028_1_alg».proof.Proof.RefRunP
import proofs.«426053_j16621523436028_1_alg».proof.Proof.RefReadP
import proofs.«426053_j16621523436028_1_alg».proof.Proof.LabelRange
import proofs.«426053_j16621523436028_1_alg».proof.Proof.KernelRun
import proofs.«426053_j16621523436028_1_alg».proof.Proof.Bridge
import Idealize.ShloMosaic.Adequacy
import Idealize.ShloMosaic.Init

set_option maxRecDepth 16384

noncomputable section

namespace Cert.Proof

open Idealize.ShloMosaic Idealize.ShloMosaic.ValueIdx Idealize.ShloMosaic.TcCoe Idealize.SL.Sem Cert.Seesaw

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The precondition puts every label inside the class range. -/
theorem labels_in_range (m : (ℓ : Loc Cert.KernelIdeal.nD Cert.KernelIdeal.τ Cert.KernelIdeal.sig) → Buf (Elt Ideal) ℓ)
    (hpre : Cert.Pre_KernelIdeal m) (c : Dev Cert.KernelIdeal.nD) (n : Fin 8192) :
    ∃ y : Fin 2048, KRun.lab m c (ix1 n) = BitVec.ofNat 32 y.val :=
  Cert.Seesaw.label_in_range (F := Ideal) _ _ (hpre c) (ix1 n)

/-- From memories that agree on the arguments both programs end at the mean of the row losses. -/
theorem algebraic : Cert.algebraic_KernelIdeal_ReferenceIdeal := by
  intro m ρ m' ρ' hpre hagree
  refine ⟨fun c => KRun.meanK (KRun.rowsK m c), KRun.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v37_eq, (hagree c).1, (hagree c).2]
  exact (Bridge.mean_eq m c (labels_in_range m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
